-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x128 .f32) (main_arg3 : FVec F S64x128 .f32) (main_arg4 : FVec F S128 .f32) (main_arg5 : FVec F S128x64 .f32) (main_arg6 : FVec F S128x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x64, .f32⟩
  | .hbm, ⟨33, _⟩ => ⟨S_, .f32⟩
  | .hbm, ⟨34, _⟩ => ⟨S100000x64, .f32⟩
  | .hbm, ⟨35, _⟩ => ⟨S1600000x1, .i32⟩
  | .hbm, ⟨36, _⟩ => ⟨S100000x64, .f32⟩
  | .hbm, ⟨37, _⟩ => ⟨S100000x1, .f32⟩
  | .hbm, ⟨38, _⟩ => ⟨S100000x64, .f32⟩
  | .hbm, ⟨39, _⟩ => ⟨S100000x64, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S64x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Body0.lean ====
/-
  The first region's body, read at an index.

  The body stores ONE value into its output block: with the conversions to bf16 the identity at the ideal
  values and both matrix products taken into zero accumulators, row p, column q of the stored block is
      max( (∑ₖ mean[p,k]·Wl[k,q]) + (∑ₖ x[p,k]·Wr[k,q]) + b[0,q] , 0 )
  over the body's five loaded blocks.
-/
import proofs.«176030_j66211215835633_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-! ## The matrix product's dimension numbers, axis by axis

The product contracts axis 1 of the left operand with axis 0 of the right one; the left operand's axis 0 and the
right operand's axis 1 are the result's two axes. -/

/-- The left operand's row is the result's row. -/
theorem lhs_prod0_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide), dif_pos (show (0 : Fin S5000x64.rank) ∈ dot_S5000x64_S64x128_S5000x128_1_0_0_1_n_n.lhsNonContracting by decide)]
  rfl
/-- The left operand's column is the contracted coordinate. -/
theorem lhs_prod0_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
/-- The right operand's row is the contracted coordinate. -/
theorem rhs_prod0_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
/-- The right operand's column is the result's column. -/
theorem rhs_prod0_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide), dif_pos (show (1 : Fin S64x128.rank) ∈ dot_S5000x64_S64x128_S5000x128_1_0_0_1_n_n.rhsNonContracting by decide)]
  rfl

/-- A [5000,64] by [64,128] product into a zero accumulator, at row `p` and column `q`: the sum over the 64
    contracted coordinates of the left operand's row `p` against the right operand's column `q`. -/
theorem prod0_apply (l : FVec Ideal S5000x64 .bf16) (r : FVec Ideal S64x128 .bf16) (p : Fin 5000) (q : Fin 128) :
    matmul dot_S5000x64_S64x128_S5000x128_1_0_0_1_n_n none l r (constant (F := Ideal) S5000x128 .f32 0x00000000#32) (ix2 p q)
      = ∑ k : Fin 64, l (ix2 p k) * r (ix2 k q) := by
  simp only [matmul]
  rw [Ideal.matmul_constant_zero_apply, ← Equiv.sum_comp (ValueIdx.contrEquiv1 dot_S5000x64_S64x128_S5000x128_1_0_0_1_n_n 64 rfl rfl).symm]
  refine Finset.sum_congr rfl fun k _ => ?_
  have hk := ValueIdx.contrEquiv1_symm_val dot_S5000x64_S64x128_S5000x128_1_0_0_1_n_n 64 rfl rfl k
  have el : dot_S5000x64_S64x128_S5000x128_1_0_0_1_n_n.lhsIdx (ix2 p q) ((ValueIdx.contrEquiv1 dot_S5000x64_S64x128_S5000x128_1_0_0_1_n_n 64 rfl rfl).symm k) = ix2 p k := funext fun a => Fin.ext (by
    match a with
    | ⟨0, _⟩ => exact lhs_prod0_0 _ _
    | ⟨1, _⟩ => exact (lhs_prod0_1 _ _).trans hk)
  have er : dot_S5000x64_S64x128_S5000x128_1_0_0_1_n_n.rhsIdx (ix2 p q) ((ValueIdx.contrEquiv1 dot_S5000x64_S64x128_S5000x128_1_0_0_1_n_n 64 rfl rfl).symm k) = ix2 k q := funext fun a => Fin.ext (by
    match a with
    | ⟨0, _⟩ => exact (rhs_prod0_0 _ _).trans hk
    | ⟨1, _⟩ => exact rhs_prod0_1 _ _)
  rw [el, er]

/-- The stored value of the first region's body at row `p`, column `q` of its block. -/
theorem pay0_apply (v0 v3 : Vec Ideal S5000x64 .f32) (v5 v7 : Vec Ideal S64x128 .f32) (v12 : Vec Ideal S1x128 .f32)
    (p : Fin 5000) (q : Fin 128) :
    k0_pay1 (F := Ideal) v0 v3 v5 v7 v12 (ix2 p q)
      = max (((∑ k : Fin 64, v0 (ix2 p k) * v5 (ix2 k q)) + ∑ k : Fin 64, v3 (ix2 p k) * v7 (ix2 k q)) + v12 (ix2 0 q))
          (Ideal.ofBits .f32 0x00000000#32) := by
  unfold k0_pay1
  -- the outer pointwise operations: the maximum with the broadcast zero, the two sums
  rw [maximumf_apply, broadcast_apply, addf_apply, addf_apply]
  -- the two products, each into a zero accumulator
  rw [prod0_apply, prod0_apply]
  -- the bias row, broadcast over the 5000 rows, reads its one row
  rw [broadcastTo_1b_ab_apply, shapeCast_self, shapeCast_self]
  -- the conversions to bf16 are the identity at the ideal values
  simp only [truncf_apply]
  rfl

end Cert.KernelIdeal.Hand

end
-- ==== Proof.Spec.lean ====
/-
  What one SAGE layer computes, index by index, on the extended reals.

  Row r, column q of a layer's result is

      (∑ₖ mean[r,k] · Wl[k,q])  +  (∑ₖ a[r,k] · Wr[k,q])  +  b[q],

  the first layer clamped below by zero (ReLU). Both programs are stated against these two functions: the
  kernel computes them one block of 5000 rows at a time with two matrix products into zero accumulators, the
  reference with two whole-array dot products; at the ideal values neither the tiling nor the product's
  schedule is left in the result. The zero of the ReLU is kept as the float word both programs spell.
-/
import proofs.«176030_j66211215835633_1_alg».proof.KernelIdeal
import Idealize.ShloMosaic.PureOps.Ideal
import Idealize.ShloMosaic.Lib.ValueIdx

noncomputable section

namespace Cert.Sage

open Idealize.ShloMosaic Idealize.ShloMosaic.ValueIdx
open Cert.KernelIdeal (S100000x64 S100000x128 S64x128 S128x64)

/-- The first layer: 64 input channels, 128 hidden channels, ReLU. -/
def hidden (mean a : FVec Ideal S100000x64 .f32) (wl wr : FVec Ideal S64x128 .f32) (b : Fin 128 → EReal) :
    FVec Ideal S100000x128 .f32 := fun i =>
  max (((∑ k : Fin 64, mean (ix2 (i 0) k) * wl (ix2 k (i 1))) + ∑ k : Fin 64, a (ix2 (i 0) k) * wr (ix2 k (i 1))) + b (i 1))
    (Ideal.ofBits .f32 0x00000000#32)

/-- The second layer: 128 hidden channels, 64 output channels, no activation. -/
def out (mean a : FVec Ideal S100000x128 .f32) (wl wr : FVec Ideal S128x64 .f32) (b : Fin 64 → EReal) :
    FVec Ideal S100000x64 .f32 := fun i =>
  ((∑ k : Fin 128, mean (ix2 (i 0) k) * wl (ix2 k (i 1))) + ∑ k : Fin 128, a (ix2 (i 0) k) * wr (ix2 k (i 1))) + b (i 1)

end Cert.Sage

end
-- ==== Proof.Region0.lean ====
/-
  The first region's output array after the region, as one function of the arrays the region finds.

  The grid has 20 points; point t stages rows 5000·t … 5000·t + 4999 of the mean and of x, the two weight
  matrices and the bias row whole, and writes back rows 5000·t … of the hidden array. Each written block is the
  restriction of ONE whole-array function (the first SAGE layer of the entry arrays) to those rows, and the 20
  row blocks cover the array, so the array ends holding that function.
-/
import proofs.«176030_j66211215835633_1_alg».proof.Proof.Gen.KernelIdeal.Frame
import proofs.«176030_j66211215835633_1_alg».proof.Proof.Body0
import proofs.«176030_j66211215835633_1_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

/-! ## Where each window's block sits

Decided once over the 20 grid points: the two row-blocked inputs and the output sit at block row `t`, block
column 0; the two weight matrices and the bias row are staged whole. -/

theorem zero_offsets : (![0, 0] : Fin 2 → Nat) = fun _ => 0 := funext fun a => by fin_cases a <;> rfl

theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `p` of block row `t` is a row of the 100000-row array. -/
theorem row_lt (t : Fin cfg0.N) (p : Fin 5000) : 5000 * t.val + p.val < 100000 := by
  have ht : t.val < 20 := lt_of_lt_of_eq t.isLt (N_0 : cfg0.N = 20)
  have hp := p.isLt
  omega

-- the TensorCore's buffer contents when the region is entered
variable (V : (c : Dev nD) → (b : Ref sig .tc) → Buf (Elt Ideal) ((c : Thread nD τ).loc b))

/-! ## The staged blocks, read at explicit coordinates -/

/-- The mean's block at point `t` is rows `5000·t …` of the mean. -/
theorem mean_block (c : Dev nD) (t : Fin cfg0.N) (p : Fin 5000) (k : Fin 64) :
    (iblk0 V c 0 t : Vec Ideal S5000x64 .f32) (ix2 p k)
      = (V c main_v24 : S100000x64.Idx → EReal) (ix2 ⟨5000 * t.val + p.val, row_lt t p⟩ k) := by
  obtain ⟨e0, e1, -⟩ := block_index t
  unfold iblk0
  rw [View.read_apply]
  show V c main_v24 _ = V c main_v24 _
  congr 1
  funext a
  apply Fin.ext
  match a with
  | ⟨0, _⟩ => show win0_0.index t (0 : Fin 2) * 5000 + 1 * p.val = 5000 * t.val + p.val; rw [e0]; omega
  | ⟨1, _⟩ => show win0_0.index t (1 : Fin 2) * 64 + 1 * k.val = k.val; rw [e1]; omega

/-- The block of x at point `t` is rows `5000·t …` of x. -/
theorem x_block (c : Dev nD) (t : Fin cfg0.N) (p : Fin 5000) (k : Fin 64) :
    (iblk0 V c 1 t : Vec Ideal S5000x64 .f32) (ix2 p k)
      = (V c main_arg0 : S100000x64.Idx → EReal) (ix2 ⟨5000 * t.val + p.val, row_lt t p⟩ k) := by
  obtain ⟨-, -, e0, e1, -⟩ := block_index t
  unfold iblk0
  rw [View.read_apply]
  show V c main_arg0 _ = V c main_arg0 _
  congr 1
  funext a
  apply Fin.ext
  match a with
  | ⟨0, _⟩ => show win0_1.index t (0 : Fin 2) * 5000 + 1 * p.val = 5000 * t.val + p.val; rw [e0]; omega
  | ⟨1, _⟩ => show win0_1.index t (1 : Fin 2) * 64 + 1 * k.val = k.val; rw [e1]; omega

/-- The first weight matrix is staged whole at every point. -/
theorem wl_block (c : Dev nD) (t : Fin cfg0.N) (k : Fin 64) (q : Fin 128) :
    (iblk0 V c 2 t : Vec Ideal S64x128 .f32) (ix2 k q) = (V c main_arg2 : S64x128.Idx → EReal) (ix2 k q) := by
  obtain ⟨-, -, -, -, e0, e1, -⟩ := block_index t
  unfold iblk0
  rw [View.read_apply]
  show V c main_arg2 _ = V c main_arg2 _
  congr 1
  funext a
  apply Fin.ext
  match a with
  | ⟨0, _⟩ => show win0_2.index t (0 : Fin 2) * 64 + 1 * k.val = k.val; rw [e0]; omega
  | ⟨1, _⟩ => show win0_2.index t (1 : Fin 2) * 128 + 1 * q.val = q.val; rw [e1]; omega

/-- The second weight matrix is staged whole at every point. -/
theorem wr_block (c : Dev nD) (t : Fin cfg0.N) (k : Fin 64) (q : Fin 128) :
    (iblk0 V c 3 t : Vec Ideal S64x128 .f32) (ix2 k q) = (V c main_arg3 : S64x128.Idx → EReal) (ix2 k q) := by
  obtain ⟨-, -, -, -, -, -, e0, e1, -⟩ := block_index t
  unfold iblk0
  rw [View.read_apply]
  show V c main_arg3 _ = V c main_arg3 _
  congr 1
  funext a
  apply Fin.ext
  match a with
  | ⟨0, _⟩ => show win0_3.index t (0 : Fin 2) * 64 + 1 * k.val = k.val; rw [e0]; omega
  | ⟨1, _⟩ => show win0_3.index t (1 : Fin 2) * 128 + 1 * q.val = q.val; rw [e1]; omega

/-- The bias row is staged whole at every point. -/
theorem bias_block (c : Dev nD) (t : Fin cfg0.N) (q : Fin 128) :
    (iblk0 V c 4 t : Vec Ideal S1x128 .f32) (ix2 (0 : Fin 1) q) = (V c main_v25 : S1x128.Idx → EReal) (ix2 (0 : Fin 1) q) := by
  obtain ⟨-, -, -, -, -, -, -, -, e0, e1, -⟩ := block_index t
  unfold iblk0
  rw [View.read_apply]
  show V c main_v25 _ = V c main_v25 _
  congr 1
  funext a
  apply Fin.ext
  match a with
  | ⟨0, _⟩ => show win0_4.index t (0 : Fin 2) * 1 + 1 * (0 : Fin 1).val = (0 : Fin 1).val; rw [e0]; rfl
  | ⟨1, _⟩ => show win0_4.index t (1 : Fin 2) * 128 + 1 * q.val = q.val; rw [e1]; omega

/-- Row `p`, column `q` of the output's block at point `t` is row `5000·t + p`, column `q` of the hidden array. -/
theorem out_block_index (t : Fin cfg0.N) (p : Fin 5000) (q : Fin 128) :
    (((cfg0.win 5).blk t).view.emb (ix2 p q) : S100000x128.Idx) = ix2 ⟨5000 * t.val + p.val, row_lt t p⟩ q := by
  obtain ⟨-, -, -, -, -, -, -, -, -, -, e0, e1⟩ := block_index t
  funext a
  apply Fin.ext
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-! ## What a point writes back, and the cover -/

/-- What point `t` writes back is block `t` of the first layer of the entry arrays. -/
theorem flushed_hidden (c : Dev nD) (t : Fin cfg0.N) :
    (dat0 (F := Ideal) V c).flushed 5 t
      = ((cfg0.win 5).blk t).view.read (Elt Ideal)
          (Cert.Sage.hidden (V c main_v24) (V c main_arg0) (V c main_arg2) (V c main_arg3) (fun q => V c main_v25 (ix2 0 q))) := by
  show (cfg0.win 5).cut (grid0.coords t) ((dat0 (F := Ideal) V c).after 5 t) = _
  rw [after0_5]
  unfold out0_5
  rw [View.canon_unit_zero zero_offsets]
  simp only [View.ld_unit_zero (S := S5000x64) zero_offsets, View.ld_unit_zero (S := S64x128) zero_offsets,
    View.ld_unit_zero (S := S1x128) zero_offsets]
  funext j
  obtain ⟨p, q, rfl⟩ : ∃ (p : Fin 5000) (q : Fin 128), j = ix2 p q := ⟨j 0, j 1, eq_ix2 (n0 := 5000) (n1 := 128) j⟩
  rw [View.read_apply]
  show k0_pay1 (F := Ideal) (iblk0 V c 0 t) (iblk0 V c 1 t) (iblk0 V c 2 t) (iblk0 V c 3 t) (iblk0 V c 4 t) (ix2 p q)
      = Cert.Sage.hidden (V c main_v24) (V c main_arg0) (V c main_arg2) (V c main_arg3) (fun q => V c main_v25 (ix2 0 q))
          (((cfg0.win 5).blk t).view.emb (ix2 p q))
  rw [pay0_apply, out_block_index]
  unfold Cert.Sage.hidden
  simp only [mean_block V c t, x_block V c t, wl_block V c t, wr_block V c t, bias_block V c t]

/-- Every row of the hidden array is in the block of the point its row block names. -/
theorem rows_covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 :=
    ⟨⟨(i 0).val / 5000, lt_of_lt_of_eq (by omega : (i 0).val / 5000 < 20) hN.symm⟩, rfl⟩
  obtain ⟨-, -, -, -, -, -, -, -, -, -, e0, e1⟩ := block_index t
  refine ⟨t, flush0_5 t, ?_⟩
  show i ∈ ((View.whole main_v26).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- After the first region its output array is the first layer of the arrays it found at entry. -/
theorem final0 (c : Dev nD) :
    (dat0 (F := Ideal) V c).arrAt 5 cfg0.N
      = Cert.Sage.hidden (V c main_v24) (V c main_arg0) (V c main_arg2) (V c main_arg3) (fun q => V c main_v25 (ix2 0 q)) :=
  (dat0 (F := Ideal) V c).arrAt_eq_of_cover 5 _ (fun t _ => flushed_hidden V c t) rows_covered

end Cert.KernelIdeal.Hand

end
-- ==== Proof.Body1.lean ====
/-
  The second region's body, read at an index.

  The body stores ONE value into its output block: row p, column q of the stored block is
      (∑ₖ mean[p,k]·Wl[k,q]) + (∑ₖ h[p,k]·Wr[k,q]) + b[0,q]
  over the body's five loaded blocks (no activation in this layer).
-/
import proofs.«176030_j66211215835633_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Hand

open Idealize.ShloMosaic Idealize.ShloMosaic.ValueIdx Cert.KernelIdeal Cert.KernelIdeal.Gen

/-- The left operand's row axis of the product's operand index is the output's row. -/
theorem lhs_dot1_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column axis is the contraction coordinate. -/
theorem lhs_dot1_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row axis is the contraction coordinate. -/
theorem rhs_dot1_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column axis is the output's column. -/
theorem rhs_dot1_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- A [5000,128] × [128,64] product into the zero accumulator, read at row `p`, column `q`: the sum over the
    128 contraction coordinates of the row's entry times the column's entry. -/
theorem dot1_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs_dot1_0 _ _
    | ⟨1, _⟩ => exact (lhs_dot1_1 _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs_dot1_0 _ _).trans hk
    | ⟨1, _⟩ => exact rhs_dot1_1 _ _)
  rw [el, er]

/-- The [1,64] bias row spread over the 5000 rows reads, at row `p`, column `q`, its entry in column `q`. -/
theorem bias1_apply (b : FVec Ideal S1x64 .f32) (p : Fin 5000) (q : Fin 64) :
    broadcastTo S5000x64 (shapeCast S1x64 b shapeCasts_S1x64_S1x64) broadcasts_S1x64_S5000x64 (ix2 p q) = b (ix2 0 q) := by
  rw [shapeCast_self]
  exact broadcastTo_apply b broadcasts_S1x64_S5000x64 (ix2 p q) (ix2 0 q) (fun a => by
    match a with
    | ⟨0, _⟩ => show (0 : Nat) = if (1 : Nat) = 1 then 0 else p.val; rw [if_pos rfl]
    | ⟨1, _⟩ => show q.val = if (64 : Nat) = 1 then 0 else q.val; rw [if_neg (by decide)])

/-- The stored value of the second region's body at row `p`, column `q` of its block. -/
theorem pay1_apply (v0 v3 : Vec Ideal S5000x128 .f32) (v6 v8 : Vec Ideal S128x64 .f32) (v13 : Vec Ideal S1x64 .f32)
    (p : Fin 5000) (q : Fin 64) :
    k1_pay1 (F := Ideal) v0 v3 v6 v8 v13 (ix2 p q)
      = ((∑ k : Fin 128, v0 (ix2 p k) * v6 (ix2 k q)) + ∑ k : Fin 128, v3 (ix2 p k) * v8 (ix2 k q)) + v13 (ix2 0 q) := by
  unfold k1_pay1
  rw [addf_apply, addf_apply, dot1_apply, dot1_apply, bias1_apply]
  simp only [truncf_apply, shapeCast_self]

end Cert.KernelIdeal.Hand

end
-- ==== Proof.Region1.lean ====
/-
  The second region's output array after the region, as one function of the arrays the region finds.

  The grid has 20 points; point t stages rows 5000·t … 5000·t + 4999 of the mean and of the hidden array, the
  two weight matrices and the bias row whole, and writes back rows 5000·t … of the result. Each written block
  is the restriction of ONE whole-array function (the second SAGE layer of the entry arrays) to those rows, and
  the 20 row blocks cover the array, so the array ends holding that function.
-/
import proofs.«176030_j66211215835633_1_alg».proof.Proof.Gen.KernelIdeal.Frame
import proofs.«176030_j66211215835633_1_alg».proof.Proof.Body1
import proofs.«176030_j66211215835633_1_alg».proof.Proof.Spec
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

-- the TensorCore's buffer contents when the region is entered
variable (V : (c : Dev nD) → (b : Ref sig .tc) → Buf (Elt Ideal) ((c : Thread nD τ).loc b))

/-- The zero offsets of a whole-block access. -/
theorem hz1 : (![0, 0] : Fin 2 → Nat) = fun _ => 0 := funext fun a => by
  match a with
  | ⟨0, _⟩ => rfl
  | ⟨1, _⟩ => rfl

/-- The region's index maps over its 20 points: the two row-blocked inputs and the output are at row block `t`,
    column block 0; the weights and the bias row are at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The mean's block at point `t` holds rows 5000·t … of the mean. -/
theorem blk0_apply (c : Dev nD) (t : Fin cfg1.N) (p : Fin 5000) (k : Fin 128) (r : Fin 100000) (hr : r.val = 5000 * t.val + p.val) :
    (iblk1 V c 0 t : Vec Ideal S5000x128 .f32) (ix2 p k) = (V c main_v39 : FVec Ideal S100000x128 .f32) (ix2 r k) := by
  obtain ⟨e0, e1, -⟩ := idx_facts1 t
  unfold iblk1
  rw [View.read_apply]
  show V c main_v39 _ = V c main_v39 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- The hidden array's block at point `t` holds rows 5000·t … of the hidden array. -/
theorem blk1_apply (c : Dev nD) (t : Fin cfg1.N) (p : Fin 5000) (k : Fin 128) (r : Fin 100000) (hr : r.val = 5000 * t.val + p.val) :
    (iblk1 V c 1 t : Vec Ideal S5000x128 .f32) (ix2 p k) = (V c main_v26 : FVec Ideal S100000x128 .f32) (ix2 r k) := by
  obtain ⟨-, -, e0, e1, -⟩ := idx_facts1 t
  unfold iblk1
  rw [View.read_apply]
  show V c main_v26 _ = V c main_v26 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- The first weight matrix is staged whole. -/
theorem blk2_apply (c : Dev nD) (t : Fin cfg1.N) (k : Fin 128) (q : Fin 64) :
    (iblk1 V c 2 t : Vec Ideal S128x64 .f32) (ix2 k q) = (V c main_arg5 : FVec Ideal S128x64 .f32) (ix2 k q) := by
  obtain ⟨-, -, -, -, e0, e1, -⟩ := idx_facts1 t
  unfold iblk1
  rw [View.read_apply]
  show V c main_arg5 _ = V c main_arg5 _
  congr 1
  funext a
  apply Fin.ext
  match a with
  | ⟨0, _⟩ => show win1_2.index t (0 : Fin 2) * 128 + 1 * k.val = k.val; rw [e0]; omega
  | ⟨1, _⟩ => show win1_2.index t (1 : Fin 2) * 64 + 1 * q.val = q.val; rw [e1]; omega

/-- The second weight matrix is staged whole. -/
theorem blk3_apply (c : Dev nD) (t : Fin cfg1.N) (k : Fin 128) (q : Fin 64) :
    (iblk1 V c 3 t : Vec Ideal S128x64 .f32) (ix2 k q) = (V c main_arg6 : FVec Ideal S128x64 .f32) (ix2 k q) := by
  obtain ⟨-, -, -, -, -, -, e0, e1, -⟩ := idx_facts1 t
  unfold iblk1
  rw [View.read_apply]
  show V c main_arg6 _ = V c main_arg6 _
  congr 1
  funext a
  apply Fin.ext
  match a with
  | ⟨0, _⟩ => show win1_3.index t (0 : Fin 2) * 128 + 1 * k.val = k.val; rw [e0]; omega
  | ⟨1, _⟩ => show win1_3.index t (1 : Fin 2) * 64 + 1 * q.val = q.val; rw [e1]; omega

/-- The bias row is staged whole. -/
theorem blk4_apply (c : Dev nD) (t : Fin cfg1.N) (z : Fin 1) (q : Fin 64) :
    (iblk1 V c 4 t : Vec Ideal S1x64 .f32) (ix2 z q) = (V c main_v40 : FVec Ideal S1x64 .f32) (ix2 z q) := by
  obtain ⟨-, -, -, -, -, -, -, -, e0, e1, -⟩ := idx_facts1 t
  unfold iblk1
  rw [View.read_apply]
  show V c main_v40 _ = V c main_v40 _
  congr 1
  funext a
  apply Fin.ext
  match a with
  | ⟨0, _⟩ => show win1_4.index t (0 : Fin 2) * 1 + 1 * z.val = z.val; rw [e0]; omega
  | ⟨1, _⟩ => show win1_4.index t (1 : Fin 2) * 64 + 1 * q.val = q.val; rw [e1]; omega

/-- The second layer read at row `r`, column `q`. -/
theorem out_apply (A0 A1 : FVec Ideal S100000x128 .f32) (W0 W1 : FVec Ideal S128x64 .f32) (b : Fin 64 → EReal) (r : Fin 100000) (q : Fin 64) :
    Cert.Sage.out A0 A1 W0 W1 b (ix2 r q)
      = ((∑ k : Fin 128, A0 (ix2 r k) * W0 (ix2 k q)) + ∑ k : Fin 128, A1 (ix2 r k) * W1 (ix2 k q)) + b q := rfl

/-- What point `t` writes back is rows 5000·t … of the second layer of the entry arrays. -/
theorem flushed1_eq (c : Dev nD) (t : Fin cfg1.N) :
    (dat1 (F := Ideal) V c).flushed 5 t
      = ((cfg1.win 5).blk t).view.read (Elt Ideal) (Cert.Sage.out (V c main_v39) (V c main_v26) (V c main_arg5) (V c main_arg6) (fun q => V c main_v40 (ix2 0 q))) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S128x64) hz1, View.ld_unit_zero (S := S1x64) hz1]
  refine funext fun (j : S5000x64.Idx) => ?_
  obtain ⟨p, q, rfl⟩ : ∃ (p : Fin 5000) (q : Fin 64), j = ix2 p q := ⟨j 0, j 1, eq_ix2 j⟩
  obtain ⟨-, -, -, -, -, -, -, -, -, -, e0, e1⟩ := idx_facts1 t
  have ht : t.val < 20 := lt_of_lt_of_eq t.isLt N_1
  have hr : 5000 * t.val + p.val < 100000 := by have := p.isLt; omega
  have hi : ((cfg1.win 5).blk t).view.emb (ix2 p q) = (ix2 (⟨5000 * t.val + p.val, hr⟩ : Fin 100000) q : S100000x64.Idx) := by
    funext a; apply Fin.ext
    match a with
    | ⟨0, _⟩ => show win1_5.index t (0 : Fin 2) * 5000 + 1 * p.val = 5000 * t.val + p.val; rw [e0]; omega
    | ⟨1, _⟩ => show win1_5.index t (1 : Fin 2) * 64 + 1 * q.val = q.val; rw [e1]; omega
  rw [View.read_apply, hi]
  show k1_pay1 (F := Ideal) (iblk1 V c 0 t) (iblk1 V c 1 t) (iblk1 V c 2 t) (iblk1 V c 3 t) (iblk1 V c 4 t) (ix2 p q) = _
  rw [pay1_apply]
  show _ = Cert.Sage.out (V c main_v39) (V c main_v26) (V c main_arg5) (V c main_arg6) (fun q => V c main_v40 (ix2 0 q)) (ix2 ⟨5000 * t.val + p.val, hr⟩ q)
  rw [out_apply]
  refine congrArg₂ (· + ·) (congrArg₂ (· + ·) (Finset.sum_congr rfl fun k _ => ?_) (Finset.sum_congr rfl fun k _ => ?_)) ?_
  · exact congrArg₂ (· * ·) (blk0_apply V c t p k ⟨_, hr⟩ rfl) (blk2_apply V c t k q)
  · exact congrArg₂ (· * ·) (blk1_apply V c t p k ⟨_, hr⟩ rfl) (blk3_apply V c t k q)
  · exact blk4_apply V c t 0 q

/-- Every index of the output array is in the block of the point its row block names: row `r` is in block `r / 5000`. -/
theorem cover1 (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := idx_facts1 t
  refine ⟨t, flush1_5 t, ?_⟩
  show i ∈ ((View.whole main_v41).slice (win1_5.rect t)).set
  rw [View.set_slice_whole, Rect.mem_set_unit]
  intro a
  match a with
  | ⟨0, _⟩ => show win1_5.index t (0 : Fin 2) * 5000 ≤ (i 0).val ∧ (i 0).val < win1_5.index t (0 : Fin 2) * 5000 + 5000; rw [e0, ht]; omega
  | ⟨1, _⟩ => show win1_5.index t (1 : Fin 2) * 64 ≤ (i 1).val ∧ (i 1).val < win1_5.index t (1 : Fin 2) * 64 + 64; rw [e1]; omega

/-- After the second region its output array is the second layer of the arrays it found at entry. -/
theorem final1 (c : Dev nD) :
    (dat1 (F := Ideal) V c).arrAt 5 cfg1.N
      = Cert.Sage.out (V c main_v39) (V c main_v26) (V c main_arg5) (V c main_arg6) (fun q => V c main_v40 (ix2 0 q)) := by
  exact (dat1 (F := Ideal) V c).arrAt_eq_of_cover 5
    (Cert.Sage.out (V c main_v39) (V c main_v26) (V c main_arg5) (V c main_arg6) (fun q => V c main_v40 (ix2 0 q)))
    (fun t _ => flushed1_eq V c t) (fun i => cover1 i)

end Cert.KernelIdeal.Hand

end
-- ==== Proof.KernelValue.lean ====
/-
  The kernel program's host side, named and read through the run.

  Around its two regions the program computes, on the host, the in-degree of every node (a scatter-add of ones
  along the destination row of the edge list), its reciprocal clamped below by one, and for each layer the
  neighbour sum (a gather of the layer's input along the wrapped source row, scatter-added along the destination
  row) times that reciprocal broadcast along the channels. These chains are named here as functions of the
  arrays they read, never opened: the gather and the scatter-add stay opaque. Then each boundary's contents are
  read back: the first region enters on the first mean, x and the first layer's parameters; it leaves the hidden
  array; the second region enters on the second mean (of the hidden array), the hidden array and the second
  layer's parameters; and the result buffer ends at the second layer of those.
-/
import proofs.«176030_j66211215835633_1_alg».proof.Proof.Gen.KernelIdeal.Frame
import proofs.«176030_j66211215835633_1_alg».proof.Proof.Region0
import proofs.«176030_j66211215835633_1_alg».proof.Proof.Region1
import proofs.«176030_j66211215835633_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

/-! ## The host chains, as functions of what they read -/

section Chains

variable {F : FTy → Type} [FloatOps F]

/-- The source row of the edge list, as a vector of edge endpoints. -/
def srcVec (e : (⟨S2x1600000, .i32⟩ : BufTy).Contents (Elt F)) : (⟨S1600000, .i32⟩ : BufTy).Contents (Elt F) :=
  shapeCast _ (extractStridedSlice S1x1600000 ![0, 0] e slices_S2x1600000_S1x1600000_0_0) shapeCasts_S1x1600000_S1600000

/-- The destination row of the edge list. -/
def dstVec (e : (⟨S2x1600000, .i32⟩ : BufTy).Contents (Elt F)) : (⟨S1600000, .i32⟩ : BufTy).Contents (Elt F) :=
  shapeCast _ (extractStridedSlice S1x1600000 ![1, 0] e slices_S2x1600000_S1x1600000_1_0) shapeCasts_S1x1600000_S1600000

/-- One over the in-degree clamped below by one: the count is a scatter-add of ones along the destinations. -/
def invDeg (d : (⟨S1600000, .i32⟩ : BufTy).Contents (Elt F)) : (⟨S100000, .f32⟩ : BufTy).Contents (Elt F) :=
  Host.divf (broadcastInDim S100000 ![] bcast_S_S100000 (constant S_ .f32 0x3F800000#32))
    (maximumf
      (Host.scatterAdd scatter_S100000_S1600000x1_S1600000_n_0_0_1
        (broadcastInDim S100000 ![] bcast_S_S100000 (constant S_ .f32 0x00000000#32))
        (broadcastInDim S1600000x1 ![0] bcast_S1600000_S1600000x1_0 d)
        (broadcastInDim S1600000 ![] bcast_S_S1600000 (constant S_ .f32 0x3F800000#32)))
      (broadcastInDim S100000 ![] bcast_S_S100000 (constant S_ .f32 0x3F800000#32)))

/-- The source endpoints as a column of gather indices, a negative one wrapped by the node count. -/
def srcCol (s : (⟨S1600000, .i32⟩ : BufTy).Contents (Elt F)) : (⟨S1600000x1, .i32⟩ : BufTy).Contents (Elt F) :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The first layer's neighbour mean as the kernel program forms it: the neighbour sum times the reciprocal. -/
def mean1 (x : (⟨S100000x64, .f32⟩ : BufTy).Contents (Elt F)) (s d : (⟨S1600000, .i32⟩ : BufTy).Contents (Elt F)) (inv : (⟨S100000, .f32⟩ : BufTy).Contents (Elt F)) : (⟨S100000x64, .f32⟩ : BufTy).Contents (Elt F) :=
  mulf
    (Host.scatterAdd scatter_S100000x64_S1600000x1_S1600000x64_1_0_0_1
      (broadcastInDim S100000x64 ![] bcast_S_S100000x64 (constant S_ .f32 0x00000000#32))
      (broadcastInDim S1600000x1 ![0] bcast_S1600000_S1600000x1_0 d)
      (Host.gather gather_S100000x64_S1600000x1_S1600000x64_1_0_n_n_0_1_164 x (srcCol s)))
    (broadcastInDim S100000x64 ![0, 1] bcast_S100000x1_S100000x64_0_1 (broadcastInDim S100000x1 ![0] bcast_S100000_S100000x1_0 inv))

/-- The second layer's neighbour mean, of the hidden array. -/
def mean2 (h : (⟨S100000x128, .f32⟩ : BufTy).Contents (Elt F)) (s d : (⟨S1600000, .i32⟩ : BufTy).Contents (Elt F)) (inv : (⟨S100000, .f32⟩ : BufTy).Contents (Elt F)) : (⟨S100000x128, .f32⟩ : BufTy).Contents (Elt F) :=
  mulf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d)
      (Host.gather gather_S100000x128_S1600000x1_S1600000x128_1_0_n_n_0_1_1128 h (srcCol s)))
    (broadcastInDim S100000x128 ![0, 1] bcast_S100000x1_S100000x128_0_1 (broadcastInDim S100000x1 ![0] bcast_S100000_S100000x1_0 inv))

end Chains

/-! ## The first boundary: what the first region finds -/

section Boundaries

variable {F : FTy → Type} [FloatOps F]
variable (m : (ℓ : Loc nD τ sig) → Buf (Elt F) ℓ) (ρ : Dev nD → PrngReg)

theorem V1_v1 (c : Dev nD) : V1 m ρ c main_v1 = srcVec (m ((c : Thread nD τ).loc main_arg1)) := by
  show StableHlo.after hostOps0 (W0 m ρ c) (Proc.devRef .tc main_v1) = _
  after_results_simp <;> rfl

theorem V1_v3 (c : Dev nD) : V1 m ρ c main_v3 = dstVec (m ((c : Thread nD τ).loc main_arg1)) := by
  show StableHlo.after hostOps0 (W0 m ρ c) (Proc.devRef .tc main_v3) = _
  after_results_simp <;> rfl

theorem V1_v11 (c : Dev nD) : V1 m ρ c main_v11 = invDeg (dstVec (m ((c : Thread nD τ).loc main_arg1))) := by
  show StableHlo.after hostOps0 (W0 m ρ c) (Proc.devRef .tc main_v11) = _
  after_results_simp <;> rfl

theorem V1_v24 (c : Dev nD) : V1 m ρ c main_v24
    = mean1 (m ((c : Thread nD τ).loc main_arg0)) (srcVec (m ((c : Thread nD τ).loc main_arg1)))
        (dstVec (m ((c : Thread nD τ).loc main_arg1))) (invDeg (dstVec (m ((c : Thread nD τ).loc main_arg1)))) := by
  show StableHlo.after hostOps0 (W0 m ρ c) (Proc.devRef .tc main_v24) = _
  after_results_simp <;> rfl

theorem V1_v25 (c : Dev nD) : V1 m ρ c main_v25 = shapeCast _ (m ((c : Thread nD τ).loc main_arg4)) shapeCasts_S128_S1x128 := by
  show StableHlo.after hostOps0 (W0 m ρ c) (Proc.devRef .tc main_v25) = _
  after_results_simp <;> rfl

theorem V1_arg (c : Dev nD) (b : Ref sig .tc) (hb : (hostOps0 : List (HloOp τ sig (Elt F))).Forall fun op => Proc.devRef .tc b ∉ op.writes) :
    V1 m ρ c b = m ((c : Thread nD τ).loc b) :=
  StableHlo.after_of_forall_not_mem (b := Proc.devRef .tc b) _ _ (List.forall_iff_forall_mem.mp hb)

end Boundaries

/-! ## The first boundary's arguments, and the later boundaries -/

section Later

variable (m : (ℓ : Loc nD τ sig) → Buf (Elt Ideal) ℓ) (ρ : Dev nD → PrngReg)

theorem V1_arg0 (c : Dev nD) : V1 m ρ c main_arg0 = (m ((c : Thread nD τ).loc main_arg0)) := by
  show StableHlo.after hostOps0 (W0 m ρ c) (Proc.devRef .tc main_arg0) = _
  after_results_simp <;> rfl
theorem V1_arg2 (c : Dev nD) : V1 m ρ c main_arg2 = (m ((c : Thread nD τ).loc main_arg2)) := by
  show StableHlo.after hostOps0 (W0 m ρ c) (Proc.devRef .tc main_arg2) = _
  after_results_simp <;> rfl
theorem V1_arg3 (c : Dev nD) : V1 m ρ c main_arg3 = (m ((c : Thread nD τ).loc main_arg3)) := by
  show StableHlo.after hostOps0 (W0 m ρ c) (Proc.devRef .tc main_arg3) = _
  after_results_simp <;> rfl
theorem V1_arg5 (c : Dev nD) : V1 m ρ c main_arg5 = (m ((c : Thread nD τ).loc main_arg5)) := by
  show StableHlo.after hostOps0 (W0 m ρ c) (Proc.devRef .tc main_arg5) = _
  after_results_simp <;> rfl
theorem V1_arg6 (c : Dev nD) : V1 m ρ c main_arg6 = (m ((c : Thread nD τ).loc main_arg6)) := by
  show StableHlo.after hostOps0 (W0 m ρ c) (Proc.devRef .tc main_arg6) = _
  after_results_simp <;> rfl
theorem V1_arg7 (c : Dev nD) : V1 m ρ c main_arg7 = (m ((c : Thread nD τ).loc main_arg7)) := by
  show StableHlo.after hostOps0 (W0 m ρ c) (Proc.devRef .tc main_arg7) = _
  after_results_simp <;> rfl

/-- The hidden array as the kernel program computes it, of the argument arrays: the first layer of its own mean. -/
def hiddenK (x0 : FVec Ideal S100000x64 .f32) (x1 : IVec S2x1600000 32) (x2 x3 : FVec Ideal S64x128 .f32) (x4 : FVec Ideal S128 .f32) :
    FVec Ideal S100000x128 .f32 :=
  Cert.Sage.hidden (mean1 (F := Ideal) x0 (srcVec (F := Ideal) x1) (dstVec (F := Ideal) x1) (invDeg (F := Ideal) (dstVec (F := Ideal) x1))) x0 x2 x3
    (fun q => shapeCast S1x128 x4 shapeCasts_S128_S1x128 (ix2 0 q))

/-- The result array as the kernel program computes it, of the argument arrays: the second layer of its own mean of
    the hidden array. -/
def outK (x0 : FVec Ideal S100000x64 .f32) (x1 : IVec S2x1600000 32) (x2 x3 : FVec Ideal S64x128 .f32) (x4 : FVec Ideal S128 .f32)
    (x5 x6 : FVec Ideal S128x64 .f32) (x7 : FVec Ideal S64 .f32) : FVec Ideal S100000x64 .f32 :=
  Cert.Sage.out (mean2 (F := Ideal) (hiddenK x0 x1 x2 x3 x4) (srcVec (F := Ideal) x1) (dstVec (F := Ideal) x1) (invDeg (F := Ideal) (dstVec (F := Ideal) x1)))
    (hiddenK x0 x1 x2 x3 x4) x5 x6 (fun q => shapeCast S1x64 x7 shapeCasts_S64_S1x64 (ix2 0 q))

/-! ### After the first region: its output array is the hidden array, every other buffer as entered -/

theorem W2_v26 (c : Dev nD) : W2 m ρ c (Proc.devRef .tc main_v26)
    = hiddenK (m ((c : Thread nD τ).loc main_arg0)) (m ((c : Thread nD τ).loc main_arg1)) (m ((c : Thread nD τ).loc main_arg2)) (m ((c : Thread nD τ).loc main_arg3)) (m ((c : Thread nD τ).loc main_arg4)) := by
  refine (W2_arr m ρ c 5).trans ((final0 (V1 m ρ) c).trans ?_)
  rw [V1_v24, V1_v25, V1_arg0, V1_arg2, V1_arg3]
  rfl

theorem W2_v1 (c : Dev nD) : W2 m ρ c (Proc.devRef .tc main_v1) = srcVec (m ((c : Thread nD τ).loc main_arg1)) :=
  (W2_of_ne m ρ c main_v1 (by decide)).trans (V1_v1 m ρ c)
theorem W2_v3 (c : Dev nD) : W2 m ρ c (Proc.devRef .tc main_v3) = dstVec (m ((c : Thread nD τ).loc main_arg1)) :=
  (W2_of_ne m ρ c main_v3 (by decide)).trans (V1_v3 m ρ c)
theorem W2_v11 (c : Dev nD) : W2 m ρ c (Proc.devRef .tc main_v11) = invDeg (dstVec (m ((c : Thread nD τ).loc main_arg1))) :=
  (W2_of_ne m ρ c main_v11 (by decide)).trans (V1_v11 m ρ c)
theorem W2_arg5 (c : Dev nD) : W2 m ρ c (Proc.devRef .tc main_arg5) = (m ((c : Thread nD τ).loc main_arg5)) :=
  (W2_of_ne m ρ c main_arg5 (by decide)).trans (V1_arg5 m ρ c)
theorem W2_arg6 (c : Dev nD) : W2 m ρ c (Proc.devRef .tc main_arg6) = (m ((c : Thread nD τ).loc main_arg6)) :=
  (W2_of_ne m ρ c main_arg6 (by decide)).trans (V1_arg6 m ρ c)
theorem W2_arg7 (c : Dev nD) : W2 m ρ c (Proc.devRef .tc main_arg7) = (m ((c : Thread nD τ).loc main_arg7)) :=
  (W2_of_ne m ρ c main_arg7 (by decide)).trans (V1_arg7 m ρ c)

/-! ### What the second region finds -/

theorem V3_v39 (c : Dev nD) : V3 m ρ c main_v39
    = mean2 (W2 m ρ c (Proc.devRef .tc main_v26)) (W2 m ρ c (Proc.devRef .tc main_v1)) (W2 m ρ c (Proc.devRef .tc main_v3))
        (W2 m ρ c (Proc.devRef .tc main_v11)) := by
  show StableHlo.after hostOps1 (W2 m ρ c) (Proc.devRef .tc main_v39) = _
  after_results_simp <;> rfl
theorem V3_v26 (c : Dev nD) : V3 m ρ c main_v26 = W2 m ρ c (Proc.devRef .tc main_v26) := by
  show StableHlo.after hostOps1 (W2 m ρ c) (Proc.devRef .tc main_v26) = _
  after_results_simp <;> rfl
theorem V3_arg5 (c : Dev nD) : V3 m ρ c main_arg5 = W2 m ρ c (Proc.devRef .tc main_arg5) := by
  show StableHlo.after hostOps1 (W2 m ρ c) (Proc.devRef .tc main_arg5) = _
  after_results_simp <;> rfl
theorem V3_arg6 (c : Dev nD) : V3 m ρ c main_arg6 = W2 m ρ c (Proc.devRef .tc main_arg6) := by
  show StableHlo.after hostOps1 (W2 m ρ c) (Proc.devRef .tc main_arg6) = _
  after_results_simp <;> rfl
theorem V3_v40 (c : Dev nD) : V3 m ρ c main_v40 = shapeCast _ (W2 m ρ c (Proc.devRef .tc main_arg7)) shapeCasts_S64_S1x64 := by
  show StableHlo.after hostOps1 (W2 m ρ c) (Proc.devRef .tc main_v40) = _
  after_results_simp <;> rfl

/-! ### The result buffer at the last boundary -/

/-- At the last boundary the result buffer holds the kernel program's function of the argument arrays. -/
theorem out_value (c : Dev nD) : W4 m ρ c (Proc.devRef .tc main_v41)
    = outK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 5).trans ((final1 (V3 m ρ) c).trans ?_)
  rw [V3_v39, V3_v26, V3_arg5, V3_arg6, V3_v40, W2_v26, W2_v1, W2_v3, W2_v11, W2_arg5, W2_arg6, W2_arg7]
  rfl

end Later

end Cert.KernelIdeal.Hand

end
-- ==== Proof.RefSide.lean ====
/-
  The reference's result, read one operation at a time.

  The reference program applies, twice, the same SAGE layer the specification states: a whole-array quotient
  forms the neighbour mean, two whole-array dot products and a broadcast bias row form the layer, and the first
  layer is clamped below by zero. Read at an index with the generated read-at-an-index lemmas, each layer's
  result is the specification's function of the mean, the layer's input, the two weight matrices and the bias.
-/
import proofs.«176030_j66211215835633_1_alg».proof.Proof.Gen.ReferenceIdeal.Run
import proofs.«176030_j66211215835633_1_alg».proof.Proof.Gen.ReferenceIdeal.Read
import proofs.«176030_j66211215835633_1_alg».proof.Proof.Spec
import Idealize.ShloMosaic.Lib.ValueIdx
import Idealize.ShloMosaic.PureOps.Ideal.Laws

noncomputable section

namespace Cert.ReferenceIdeal.RefSide

open Idealize.ShloMosaic Idealize.ShloMosaic.ValueIdx Cert.ReferenceIdeal Cert.ReferenceIdeal.Read

/-! ### The indices the two layers read, by coordinates

Each dot product reads its left operand at row `i 0`, column `k`, and its right operand at row `k`, column `i 1`;
the bias row, broadcast first to one row and then down every row, is read at column `i 1`. -/

/-- First layer, mean times left weights: the left operand's index is (row of `i`, `k`). -/
theorem lidx_v23_eq (i : S100000x128.Idx) (k : Fin 64) : lidx_main_v23 i k = (ix2 (i 0) k : S100000x64.Idx) :=
  funext fun a => Fin.ext (by match a with | ⟨0, _⟩ => rfl | ⟨1, _⟩ => rfl)
/-- First layer, mean times left weights: the right operand's index is (`k`, column of `i`). -/
theorem ridx_v23_eq (i : S100000x128.Idx) (k : Fin 64) : ridx_main_v23 i k = (ix2 k (i 1) : S64x128.Idx) :=
  funext fun a => Fin.ext (by match a with | ⟨0, _⟩ => rfl | ⟨1, _⟩ => rfl)
/-- First layer, input times right weights: the left operand's index is (row of `i`, `k`). -/
theorem lidx_v24_eq (i : S100000x128.Idx) (k : Fin 64) : lidx_main_v24 i k = (ix2 (i 0) k : S100000x64.Idx) :=
  funext fun a => Fin.ext (by match a with | ⟨0, _⟩ => rfl | ⟨1, _⟩ => rfl)
/-- First layer, input times right weights: the right operand's index is (`k`, column of `i`). -/
theorem ridx_v24_eq (i : S100000x128.Idx) (k : Fin 64) : ridx_main_v24 i k = (ix2 k (i 1) : S64x128.Idx) :=
  funext fun a => Fin.ext (by match a with | ⟨0, _⟩ => rfl | ⟨1, _⟩ => rfl)
/-- First layer: the twice-broadcast bias is read at the column of `i`. -/
theorem bias_v27_eq (i : S100000x128.Idx) : idx_main_v26 (idx_main_v27 i) = (ix1 (i 1) : S128.Idx) :=
  funext fun a => Fin.ext (by match a with | ⟨0, _⟩ => rfl)

/-- Second layer, mean times left weights: the left operand's index is (row of `i`, `k`). -/
theorem lidx_v49_eq (i : S100000x64.Idx) (k : Fin 128) : lidx_main_v49 i k = (ix2 (i 0) k : S100000x128.Idx) :=
  funext fun a => Fin.ext (by match a with | ⟨0, _⟩ => rfl | ⟨1, _⟩ => rfl)
/-- Second layer, mean times left weights: the right operand's index is (`k`, column of `i`). -/
theorem ridx_v49_eq (i : S100000x64.Idx) (k : Fin 128) : ridx_main_v49 i k = (ix2 k (i 1) : S128x64.Idx) :=
  funext fun a => Fin.ext (by match a with | ⟨0, _⟩ => rfl | ⟨1, _⟩ => rfl)
/-- Second layer, hidden array times right weights: the left operand's index is (row of `i`, `k`). -/
theorem lidx_v50_eq (i : S100000x64.Idx) (k : Fin 128) : lidx_main_v50 i k = (ix2 (i 0) k : S100000x128.Idx) :=
  funext fun a => Fin.ext (by match a with | ⟨0, _⟩ => rfl | ⟨1, _⟩ => rfl)
/-- Second layer, hidden array times right weights: the right operand's index is (`k`, column of `i`). -/
theorem ridx_v50_eq (i : S100000x64.Idx) (k : Fin 128) : ridx_main_v50 i k = (ix2 k (i 1) : S128x64.Idx) :=
  funext fun a => Fin.ext (by match a with | ⟨0, _⟩ => rfl | ⟨1, _⟩ => rfl)
/-- Second layer: the twice-broadcast bias is read at the column of `i`. -/
theorem bias_v53_eq (i : S100000x64.Idx) : idx_main_v52 (idx_main_v53 i) = (ix1 (i 1) : S64.Idx) :=
  funext fun a => Fin.ext (by match a with | ⟨0, _⟩ => rfl)

/-- The reference's hidden array is the first layer of its neighbour mean, x, the first layer's weights and bias. -/
theorem hidden_eq (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal)) :
    val_main_v29 (F := Ideal) x0 x1 x2 x3 x4
      = Cert.Sage.hidden (val_main_v22 (F := Ideal) x0 x1) x0 x2 x3 (fun q => x4 (ix1 q)) := by
  funext i
  -- Read the element at `i`: the maximum with zero of (mean·Wl + x·Wr) + bias, each dot product a sum over `k`.
  rw [val_main_v29_apply, val_main_v28_apply, val_main_v25_apply, val_main_v23_apply, val_main_v24_apply,
    val_main_v27_apply, val_main_v26_apply, val_main_call0_v0_apply, val_main_call0_cst_apply]
  -- The neighbour mean stays an unopened array.
  generalize val_main_v22 (F := Ideal) x0 x1 = m
  unfold Cert.Sage.hidden
  -- With the indices written by coordinates the two sides are the same expression of extended reals.
  simp only [lidx_v23_eq, ridx_v23_eq, lidx_v24_eq, ridx_v24_eq, bias_v27_eq]
  rfl

/-- The reference's result is the second layer of its second neighbour mean, the hidden array, the second layer's
    weights and bias. -/
theorem out_eq (x0 : (⟨S100000x64, .f32⟩ : BufTy).Contents (Elt Ideal)) (x1 : (⟨S2x1600000, .i32⟩ : BufTy).Contents (Elt Ideal))
    (x2 x3 : (⟨S64x128, .f32⟩ : BufTy).Contents (Elt Ideal)) (x4 : (⟨S128, .f32⟩ : BufTy).Contents (Elt Ideal))
    (x5 x6 : (⟨S128x64, .f32⟩ : BufTy).Contents (Elt Ideal)) (x7 : (⟨S64, .f32⟩ : BufTy).Contents (Elt Ideal)) :
    val_main_v54 (F := Ideal) x0 x1 x2 x3 x4 x5 x6 x7
      = Cert.Sage.out (val_main_v48 (F := Ideal) x0 x1 x2 x3 x4) (val_main_v29 (F := Ideal) x0 x1 x2 x3 x4) x5 x6 (fun q => x7 (ix1 q)) := by
  funext i
  -- Read the element at `i`: (mean·Wl + hidden·Wr) + bias, each dot product a sum over `k`; no activation.
  rw [val_main_v54_apply, val_main_v51_apply, val_main_v49_apply, val_main_v50_apply,
    val_main_v53_apply, val_main_v52_apply]
  -- The second neighbour mean and the hidden array stay unopened arrays.
  generalize val_main_v48 (F := Ideal) x0 x1 x2 x3 x4 = m
  generalize val_main_v29 (F := Ideal) x0 x1 x2 x3 x4 = h
  unfold Cert.Sage.out
  simp only [lidx_v49_eq, ridx_v49_eq, lidx_v50_eq, ridx_v50_eq, bias_v53_eq]
  rfl

end Cert.ReferenceIdeal.RefSide

end
-- ==== Proof.Law.lean ====
/-
  The one algebraic law of this certificate, on the extended reals.

  The kernel's program forms the neighbour mean as  agg · (1 / c)  and the reference as  agg / c,  where
  c = max(count, 1)  is at least one. At the ideal values a quotient by a NONZERO divisor is the product with
  the divisor's inverse (the inverse of an infinity being zero), so both are  agg · c⁻¹  for every extended
  real  agg:  nothing needs to be finite, only  c ≠ 0,  and  c ≥ 1  gives that.
-/
import Idealize.ShloMosaic.PureOps.Ideal

noncomputable section

namespace Cert.Law

open Idealize.ShloMosaic

/-- The float word of `1.0` denotes the real one. -/
theorem ofBits_one : Ideal.ofBits .f32 0x3F800000#32 = 1 := by
  simp [Ideal.ofBits, Ideal.ieee, -EReal.coe_mul]; norm_num

/-- A maximum with one is never zero: it is at least one. -/
theorem max_one_ne_zero (x : EReal) : max x 1 ≠ 0 :=
  (lt_of_lt_of_le zero_lt_one (le_max_right x 1)).ne'

/-- Multiplying by the reciprocal of a nonzero divisor is dividing by it, for every extended real dividend. -/
theorem mul_div_one (a c : EReal) (hc : c ≠ 0) : a * Ideal.div 1 c = Ideal.div a c := by
  rw [Ideal.div, Ideal.div, if_neg hc, if_neg hc, one_mul]

/-- The law as the two programs spell it: the count clamped below by the word of `1.0`, the reciprocal's
    numerator that same word. -/
theorem mean_law (a n : EReal) :
    a * Ideal.div (Ideal.ofBits .f32 0x3F800000#32) (max n (Ideal.ofBits .f32 0x3F800000#32))
      = Ideal.div a (max n (Ideal.ofBits .f32 0x3F800000#32)) := by
  rw [ofBits_one]
  exact mul_div_one a (max n 1) (max_one_ne_zero n)

end Cert.Law

end
-- ==== Proof.Bridge.lean ====
/-
  The two programs compute one function.

  Both results are the specification's second layer of (a neighbour mean of the hidden array, the hidden array,
  the second layer's parameters), the hidden array the first layer of (a neighbour mean of x, x, the first
  layer's parameters). The programs differ in ONE place: the kernel program multiplies each neighbour sum by the
  reciprocal of the clamped in-degree, the reference divides by the clamped in-degree. The clamped in-degree is
  at least one, hence not zero, and off zero a quotient is the product with the inverse: the two means are one
  array, whatever the neighbour sums are (they stay opaque: the same gather and scatter-add of the same edge
  list on both sides). A broadcast only re-indexes its operand, so the law holds of the whole arrays as it holds
  of their elements. The kernel program passes each bias as a [1, C] reshape, the reference as a broadcast row:
  both read the bias vector at the column.
-/
import proofs.«176030_j66211215835633_1_alg».proof.Proof.KernelValue
import proofs.«176030_j66211215835633_1_alg».proof.Proof.RefSide
import proofs.«176030_j66211215835633_1_alg».proof.Proof.Law
import Idealize.ShloMosaic.Lib.Pipeline.Value
import Idealize.ShloMosaic.Lib.ValueIdx

noncomputable section

namespace Cert.Bridge

open Idealize.ShloMosaic Idealize.ShloMosaic.ValueIdx
open Cert.KernelIdeal.Hand Cert.ReferenceIdeal.Read

/-- The mean law of whole arrays: a neighbour sum times the broadcast reciprocal of the clamped count is the
    neighbour sum over the broadcast clamped count. The broadcasts re-index; element by element it is the law of
    the extended reals. -/
theorem mean_whole {S0 S1 S2 S3 : Shape} (d0 : Fin S0.rank → Fin S1.rank) (h0 : S0.BroadcastsInDim S1 d0)
    (d1 : Fin S1.rank → Fin S2.rank) (h1 : S1.BroadcastsInDim S2 d1) (d2 : Fin S2.rank → Fin S3.rank) (h2 : S2.BroadcastsInDim S3 d2)
    (agg : FVec Ideal S3 .f32) (cnt : FVec Ideal S1 .f32) :
    mulf agg (broadcastInDim S3 d2 h2 (broadcastInDim S2 d1 h1
        (Host.divf (broadcastInDim S1 d0 h0 (constant (F := Ideal) S0 .f32 0x3F800000#32))
          (maximumf cnt (broadcastInDim S1 d0 h0 (constant (F := Ideal) S0 .f32 0x3F800000#32))))))
      = Host.divf agg (broadcastInDim S3 d2 h2 (broadcastInDim S2 d1 h1
          (maximumf cnt (broadcastInDim S1 d0 h0 (constant (F := Ideal) S0 .f32 0x3F800000#32))))) := by
  funext i
  exact Cert.Law.mean_law (agg i) (cnt _)

section

variable (x0 : (⟨Cert.ReferenceIdeal.S100000x64, .f32⟩ : BufTy).Contents (Elt Ideal)) (x1 : (⟨Cert.ReferenceIdeal.S2x1600000, .i32⟩ : BufTy).Contents (Elt Ideal))
  (x2 x3 : (⟨Cert.ReferenceIdeal.S64x128, .f32⟩ : BufTy).Contents (Elt Ideal)) (x4 : (⟨Cert.ReferenceIdeal.S128, .f32⟩ : BufTy).Contents (Elt Ideal))
  (x5 x6 : (⟨Cert.ReferenceIdeal.S128x64, .f32⟩ : BufTy).Contents (Elt Ideal)) (x7 : (⟨Cert.ReferenceIdeal.S64, .f32⟩ : BufTy).Contents (Elt Ideal))

/-- The kernel program's first mean is the reference's. -/
theorem mean1_eq : mean1 (F := Ideal) x0 (srcVec (F := Ideal) x1) (dstVec (F := Ideal) x1) (invDeg (F := Ideal) (dstVec (F := Ideal) x1))
    = val_main_v22 (F := Ideal) x0 x1 := by
  unfold mean1 invDeg
  refine (mean_whole _ _ _ _ _ _ _ _).trans ?_
  rfl

/-- The kernel program's second mean, of the reference's hidden array, is the reference's. -/
theorem mean2_eq : mean2 (F := Ideal) (val_main_v29 (F := Ideal) x0 x1 x2 x3 x4) (srcVec (F := Ideal) x1) (dstVec (F := Ideal) x1)
      (invDeg (F := Ideal) (dstVec (F := Ideal) x1))
    = val_main_v48 (F := Ideal) x0 x1 x2 x3 x4 := by
  unfold mean2 invDeg
  refine (mean_whole _ _ _ _ _ _ _ _).trans ?_
  rfl

/-- The first bias as a [1, 128] reshape read at column q is the bias at q. -/
theorem bias1_eq (h : Cert.KernelIdeal.S128.ShapeCasts Cert.KernelIdeal.S1x128) :
    (fun q : Fin 128 => shapeCast Cert.KernelIdeal.S1x128 x4 h (ix2 0 q)) = fun q => x4 (ix1 q) := by
  funext q
  refine (shapeCast_addUnit_apply ![128] x4 h (ix2 0 q)).trans ?_
  exact congrArg x4 (funext fun a => match a with | ⟨0, _⟩ => rfl)

/-- The second bias as a [1, 64] reshape read at column q is the bias at q. -/
theorem bias2_eq (h : Cert.KernelIdeal.S64.ShapeCasts Cert.KernelIdeal.S1x64) :
    (fun q : Fin 64 => shapeCast Cert.KernelIdeal.S1x64 x7 h (ix2 0 q)) = fun q => x7 (ix1 q) := by
  funext q
  refine (shapeCast_addUnit_apply ![64] x7 h (ix2 0 q)).trans ?_
  exact congrArg x7 (funext fun a => match a with | ⟨0, _⟩ => rfl)

/-- The kernel program's hidden array is the reference's. -/
theorem hidden_eq : hiddenK x0 x1 x2 x3 x4 = val_main_v29 (F := Ideal) x0 x1 x2 x3 x4 := by
  unfold hiddenK
  rw [mean1_eq, bias1_eq]
  exact (Cert.ReferenceIdeal.RefSide.hidden_eq x0 x1 x2 x3 x4).symm

/-- The kernel program's result is the reference's. -/
theorem out_eq : outK x0 x1 x2 x3 x4 x5 x6 x7 = val_main_v54 (F := Ideal) x0 x1 x2 x3 x4 x5 x6 x7 := by
  unfold outK
  rw [hidden_eq, mean2_eq, bias2_eq]
  exact (Cert.ReferenceIdeal.RefSide.out_eq x0 x1 x2 x3 x4 x5 x6 x7).symm

end

end Cert.Bridge

end
-- ==== Proof.lean ====
/-
  The certificate of a two-layer GraphSAGE block: a kernel program of two TensorCore regions (each layer's dense
  combine  mean · Wl + a · Wr + b  over row blocks of 5000 nodes, the first with ReLU) among host stretches that
  form the neighbour means by gather and scatter-add, against a reference that computes the same block with
  whole-array operations.

  Frames: the two kernel programs' are the generated frames; the reference's is its generated run with the result
  dropped. The idealization rewrote nothing, so there is nothing to preserve. Value: the kernel program's result
  buffer ends at the second layer of its own mean of the hidden array (each region's output array read off its
  blocks, the host stretches read through the run), the reference's at its last stage; the two are one function
  of the arguments because  sum · (1 / c) = sum / c  for the clamped in-degree  c ≥ 1  on the extended reals.
-/
import proofs.«176030_j66211215835633_1_alg».proof.Defs
import proofs.«176030_j66211215835633_1_alg».proof.Proof.Gen.Kernel
import proofs.«176030_j66211215835633_1_alg».proof.Proof.Gen.Kernel.Frame
import proofs.«176030_j66211215835633_1_alg».proof.Proof.Gen.KernelIdeal
import proofs.«176030_j66211215835633_1_alg».proof.Proof.Gen.KernelIdeal.Frame
import proofs.«176030_j66211215835633_1_alg».proof.Proof.Gen.ReferenceIdeal
import proofs.«176030_j66211215835633_1_alg».proof.Proof.Gen.ReferenceIdeal.Run
import proofs.«176030_j66211215835633_1_alg».proof.Proof.Gen.ReferenceIdeal.Read
import proofs.«176030_j66211215835633_1_alg».proof.Proof.Gen.Pre_finite_inputs
import proofs.«176030_j66211215835633_1_alg».proof.Proof.Launch
import proofs.«176030_j66211215835633_1_alg».proof.Proof.KernelValue
import proofs.«176030_j66211215835633_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the result array at one function of the argument arrays. -/
theorem algebraic : Cert.algebraic_KernelIdeal_ReferenceIdeal := by
  intro m ρ m' ρ' _ hagree
  refine ⟨fun c => Cert.KernelIdeal.Hand.outK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.out_value m ρ c), (h c).2⟩)
      (Cert.KernelIdeal.GenP.run_out (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v54_eq, e0, e1, e2, e3, e4, e5, e6, e7]
    exact (Cert.Bridge.out_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
